-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64 : Shape := ⟨2, ![4, 64]⟩
abbrev S4x4096x64 : Shape := ⟨3, ![4, 4096, 64]⟩
abbrev S1 : Shape := ⟨1, ![1]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4x64 .f32) (main_arg1 : FVec F S4x4096x64 .f32) (main_arg2 : FVec F S1 .f32) : IVec S_ 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_c : IVec S_ 1 := constantI S_ 1 1#1
  let main_v3 : IVec S_ 1 := (fun x v => Host.reduce IntOp.andi x v reducesTo_S4x64_S_d0_1 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4x64 : Shape := ⟨2, ![4, 64]⟩
abbrev S4x4096x64 : Shape := ⟨3, ![4, 4096, 64]⟩
abbrev S1 : Shape := ⟨1, ![1]⟩
abbrev S_ : Shape := ⟨0, ![]⟩
abbrev S4x1x64 : Shape := ⟨3, ![4, 1, 64]⟩
abbrev S4x4096x4096 : Shape := ⟨3, ![4, 4096, 4096]⟩
abbrev S1x1x64 : Shape := ⟨3, ![1, 1, 64]⟩
abbrev S1x1024x64 : Shape := ⟨3, ![1, 1024, 64]⟩
abbrev S1x1024x1024 : Shape := ⟨3, ![1, 1024, 1024]⟩
abbrev S64 : Shape := ⟨1, ![64]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4x64, .f32⟩
  | .hbm, ⟨1, _⟩ => ⟨S4x4096x64, .f32⟩
  | .hbm, ⟨2, _⟩ => ⟨S1, .f32⟩
  | .hbm, ⟨3, _⟩ => ⟨S_, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S_, .f32⟩
  | .hbm, ⟨9, _⟩ => ⟨S4x64, .f32⟩
  | .hbm, ⟨10, _⟩ => ⟨S4x64, .f32⟩
  | .hbm, ⟨11, _⟩ => ⟨S4x1x64, .f32⟩
  | .hbm, ⟨12, _⟩ => ⟨S4x4096x4096, .f32⟩
  | .local _ .vmem, ⟨0, _⟩ => ⟨S1x1x64, .f32⟩
  | .local _ .vmem, ⟨1, _⟩ => ⟨S1x1x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x1024, .f32⟩
  | .local _ .vmem, ⟨7, _⟩ => ⟨S1x1024x1024, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S1_S_ : S1.ShapeCasts S_
  bcast_S_S4x64 : S_.BroadcastsInDim S4x64 (![] : Fin 0 → Fin S4x64.rank)
  bcast_S4x64_S4x1x64_0_2 : S4x64.BroadcastsInDim S4x1x64 (![0, 2] : Fin 2 → Fin S4x1x64.rank)
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64.size a ≤ S4x1x64.size a
  hwx0_0 : ∀ i : grid0.Coords, EltTy.bits .f32 = 32 ∨ (Rect.block (s := S4x1x64) S1x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .f32 = 32 ∨ (Rect.block (s := S4x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x4096x64.size a
  hwx0_2 : ∀ i : grid0.Coords, EltTy.bits .f32 = 32 ∨ (Rect.block (s := S4x4096x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x4096x4096.size a
  hwx0_3 : ∀ i : grid0.Coords, EltTy.bits .f32 = 32 ∨ (Rect.block (s := S4x4096x4096) S1x1024x1024.size (cc0_transform_3 i) (hinb0_3 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v6) S1x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64 : Shape := ⟨2, ![4, 64]⟩
abbrev S4x4096x64 : Shape := ⟨3, ![4, 4096, 64]⟩
abbrev S1 : Shape := ⟨1, ![1]⟩
abbrev S_ : Shape := ⟨0, ![]⟩
abbrev S4x1x64 : Shape := ⟨3, ![4, 1, 64]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x4096x64, .f32⟩
  | .hbm, ⟨2, _⟩ => ⟨S1, .f32⟩
  | .hbm, ⟨3, _⟩ => ⟨S_, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S_, .f32⟩
  | .hbm, ⟨9, _⟩ => ⟨S4x64, .f32⟩
  | .hbm, ⟨10, _⟩ => ⟨S4x64, .f32⟩
  | .hbm, ⟨11, _⟩ => ⟨S4x1x64, .f32⟩
  | .hbm, ⟨12, _⟩ => ⟨S4x4096x64, .f32⟩
  | .hbm, ⟨13, _⟩ => ⟨S4x4096x64, .f32⟩
  | .hbm, ⟨14, _⟩ => ⟨S4x4096x64, .f32⟩
  | .hbm, ⟨15, _⟩ => ⟨S_, .f32⟩
  | .hbm, ⟨16, _⟩ => ⟨S4x4096, .f32⟩
  | .hbm, ⟨17, _⟩ => ⟨S4x4096x4096, .f32⟩
  | .hbm, ⟨18, _⟩ => ⟨S4x4096x1, .f32⟩
  | .hbm, ⟨19, _⟩ => ⟨S4x1x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S1_S_ : S1.ShapeCasts S_
  bcast_S_S4x64 : S_.BroadcastsInDim S4x64 (![] : Fin 0 → Fin S4x64.rank)
  bcast_S4x64_S4x1x64_0_2 : S4x64.BroadcastsInDim S4x1x64 (![0, 2] : Fin 2 → Fin S4x1x64.rank)
  bcast_S4x1x64_S4x4096x64_0_1_2 : S4x1x64.BroadcastsInDim S4x4096x64 (![0, 1, 2] : Fin 3 → Fin S4x4096x64.rank)
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.BitsRun.lean ====
/-
  The run of the program: the region's launch when two of its input windows (the row tile and the
  column tile) read ONE array, the array of points V. The launch hands that array to the two windows at half a share
  each; the body reads the three input blocks and stores, whole, one function of them into the output block.
-/
import proofs.«156084_j14499809591883_1_alg».proof.Proof.Gen.Kernel.Launch
import proofs.«156084_j14499809591883_1_alg».proof.Proof.Gen.Kernel.Skeleton
import proofs.«156084_j14499809591883_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` as the region finds them: the launch memory after the nine host operations that
    compute the weights `max(G, 0) ^ (2 t)` and lay them out as a `[4, 1, 64]` array. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved since the last fetch, and the body leaves the block in place. -/
theorem before_w0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_w2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rW : Rect S1x1x64 := Rect.unit (s := S1x1x64) ![0, 0, 0] S1x1x64.size inb_S1x1x64_S1x1x64_0_0_0
abbrev rV : Rect S1x1024x64 := Rect.unit (s := S1x1024x64) ![0, 0, 0] S1x1024x64.size inb_S1x1024x64_S1x1024x64_0_0_0
abbrev rO : Rect S1x1024x1024 := Rect.unit (s := S1x1024x1024) ![0, 0, 0] S1x1024x1024.size inb_S1x1024x1024_S1x1024x1024_0_0_0

/-- The output block after the body: its one whole store, of the weights' block, the row tile and the column tile. -/
def outBlock (xw : Vec F S1x1x64 .f32) (xr : Vec F S1x1024x64 .f32) (xc : Vec F S1x1024x64 .f32) : Vec F S1x1024x1024 .f32 :=
  View.canon [⟨rO, k0_pay1 (View.ld xw rW) (View.ld xr rV) (View.ld xc rV)⟩]

/-- The one store covers the block. -/
theorem outBlock_cover (p0 : Vec F S1x1024x1024 .f32) (y : S1x1024x1024.Idx) :
    ∃ pc ∈ ([⟨rO, p0⟩] : List (View.Piece (Elt F) S1x1024x1024 .f32)), y ∈ pc.1.set :=
  View.cover_of_tiled [⟨rO, p0⟩] S1x1024x1024.size (by rfl) y

/-! ## The body's triple -/

set_option maxHeartbeats 1000000 in
/-- The body on whole staging buffers, the three inputs' at given contents and the output's at anything, runs to the
    inputs' unchanged and the output's at `outBlock` of them. -/
theorem sound_kernel (c : Dev nD) (E : Set ℕ) (i : grid0.Coords) (arg3 : Memref sig .tc .vmem S1x1x64 .f32) (harg3 : arg3.IsWhole)
    (arg4 : Memref sig .tc .vmem S1x1024x64 .f32) (harg4 : arg4.IsWhole) (arg5 : Memref sig .tc .vmem S1x1024x64 .f32) (harg5 : arg5.IsWhole)
    (arg6 : Memref sig .tc .vmem S1x1024x1024 .f32) (harg6 : arg6.IsWhole)
    (xw : Vec F S1x1x64 .f32) (xr : Vec F S1x1024x64 .f32) (xc : Vec F S1x1024x64 .f32) (K : PUnit → sProp 𝕄) :
    iprop(owns (c : Thread nD τ) arg3 fullShare xw ∗ owns (c : Thread nD τ) arg4 fullShare xr ∗ owns (c : Thread nD τ) arg5 fullShare xc
        ∗ (∃ d, owns (c : Thread nD τ) arg6 fullShare d)
        ∗ (iprop(owns (c : Thread nD τ) arg3 fullShare xw ∗ owns (c : Thread nD τ) arg4 fullShare xr ∗ owns (c : Thread nD τ) arg5 fullShare xc
            ∗ owns (c : Thread nD τ) arg6 fullShare (outBlock xw xr xc)) -∗ K ⟨⟩))
      ⊢ wp frame (wpE (defs₀ (F := F)) Variants.none c none) E (cc0__dist_kernel i arg3 harg3 arg4 harg4 arg5 harg5 arg6 harg6) K := by
  simp only [cc0__dist_kernel_eq_skeleton]; unfold cc0__dist_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-! ## The proof data -/

/-- The region's proof data on core `c`: the arrays as the region finds them; after the body each input's buffer
    still at its block and the output's at `outBlock` of the three input blocks; between points only the scoped
    buffers that stage nothing; the array of points lent to the row window and to the column window at half a share
    each, the weights at the whole share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) :
    (dats m 0 c).after 3 t = outBlock (iblk m c 0 t) (iblk m c 1 t) (iblk m c 2 t) := by dsimp only [dats]

theorem before_d0 (c : Dev nD) (t : Fin cfg0.N) (d) : (dats m 0 c).before 0 t d = iblk m c 0 t :=
  before_w0 m (dats m 0 c) (A_eq m c 0) (after_w0 m c) t d
theorem before_d1 (c : Dev nD) (t : Fin cfg0.N) (d) : (dats m 0 c).before 1 t d = iblk m c 1 t :=
  before_w1 m (dats m 0 c) (A_eq m c 1) (after_w1 m c) t d
theorem before_d2 (c : Dev nD) (t : Fin cfg0.N) (d) : (dats m 0 c).before 2 t d = iblk m c 2 t :=
  before_w2 m (dats m 0 c) (A_eq m c 2) (after_w2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_d0, before_d1, before_d2]
  rw [show (dats m 0 c).Φ t.succ = (dats m 0 c).Φ t.castSucc from rfl,
    show (dats m 0 c).owesAt () t.succ = (dats m 0 c).owesAt () t.castSucc from rfl,
    after_w0, after_w1, after_w2, after_w3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The arrays at the region's entry -/

/-- The three buffers behind the four windows' arrays, each held whole at the region's entry, are the four windows'
    arrays at their shares: the whole share of the array of points is its two halves. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v6, main_arg1, main_v7] (by decide) (by decide), bigSep_W0]
  show iprop((((c.tc : Thread nD τ).loc main_v6) ↦{fullShare} V m c main_v6) ∗ (((c.tc : Thread nD τ).loc main_arg1) ↦{fullShare} V m c main_arg1)
      ∗ (((c.tc : Thread nD τ).loc main_v7) ↦{fullShare} V m c main_v7)) ⊢ _
  iintro ⟨H6, H1, H7⟩
  ihave H1' := (pointsTo_share (PosShare.mem_left_op_right fullShare)).1 $$ H1
  icases H1' with ⟨H1l, H1r⟩
  isplitl [H6]
  · rw [(arr_whole0 0).set_eq_univ]; iexact H6
  isplitl [H1l]
  · rw [(arr_whole0 1).set_eq_univ]; iexact H1l
  isplitl [H1r]
  · rw [(arr_whole0 2).set_eq_univ]; iexact H1r
  rw [(arr_whole0 3).set_eq_univ]; iexact H7

/-! ## The run -/

/-- What the run ends with: each window's array at what the write-backs leave of the proof data, every other
    unscoped buffer as the region found it. -/
def RunPost (r : PUnit × MemSt nD τ sig (Elt F)) : Prop :=
  ∀ c : Dev nD, (∀ w, r.2.mem (((cfg0).spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- From any memory with every counter at zero, every weakly fair execution of the program terminates, faulting
    nowhere, in a state satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => BI.emp_sep.2)
    (hin := fun c => by dsimp only [dats]; exact BI.emp_sep.1)
    (hout := fun c => by dsimp only [dats]; exact BI.emp_sep.2)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The arguments end unchanged: the array of points is an input window's array, which no write-back touches; the
    other two no window stages, and no host operation writes any of the three. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 rfl (by decide))).trans (V_main_arg0 m c),
     ((h c).1 1).trans (((dats m 0 c).arrAt_in 1 rfl _).trans ((A_eq m c 1).trans (V_main_arg1 m c))),
     ((h c).2 main_arg2 (Pipeline.mem_restRefs_of main_arg2 rfl (by decide))).trans (V_main_arg2 m c)⟩) (run_main m ρ)

end Cert.Kernel.Run

end
-- ==== Proof.IdealRun.lean ====
/-
  The run of the program: the region's launch when two of its input windows (the row tile and the
  column tile) read ONE array, the array of points V. The launch hands that array to the two windows at half a share
  each; the body reads the three input blocks and stores, whole, one function of them into the output block.
-/
import proofs.«156084_j14499809591883_1_alg».proof.Proof.Gen.KernelIdeal.Launch
import proofs.«156084_j14499809591883_1_alg».proof.Proof.Gen.KernelIdeal.Skeleton
import proofs.«156084_j14499809591883_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` as the region finds them: the launch memory after the nine host operations that
    compute the weights `max(G, 0) ^ (2 t)` and lay them out as a `[4, 1, 64]` array. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved since the last fetch, and the body leaves the block in place. -/
theorem before_w0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_w2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rW : Rect S1x1x64 := Rect.unit (s := S1x1x64) ![0, 0, 0] S1x1x64.size inb_S1x1x64_S1x1x64_0_0_0
abbrev rV : Rect S1x1024x64 := Rect.unit (s := S1x1024x64) ![0, 0, 0] S1x1024x64.size inb_S1x1024x64_S1x1024x64_0_0_0
abbrev rO : Rect S1x1024x1024 := Rect.unit (s := S1x1024x1024) ![0, 0, 0] S1x1024x1024.size inb_S1x1024x1024_S1x1024x1024_0_0_0

/-- The output block after the body: its one whole store, of the weights' block, the row tile and the column tile. -/
def outBlock (xw : Vec F S1x1x64 .f32) (xr : Vec F S1x1024x64 .f32) (xc : Vec F S1x1024x64 .f32) : Vec F S1x1024x1024 .f32 :=
  View.canon [⟨rO, k0_pay1 (View.ld xw rW) (View.ld xr rV) (View.ld xc rV)⟩]

/-- The one store covers the block. -/
theorem outBlock_cover (p0 : Vec F S1x1024x1024 .f32) (y : S1x1024x1024.Idx) :
    ∃ pc ∈ ([⟨rO, p0⟩] : List (View.Piece (Elt F) S1x1024x1024 .f32)), y ∈ pc.1.set :=
  View.cover_of_tiled [⟨rO, p0⟩] S1x1024x1024.size (by rfl) y

/-! ## The body's triple -/

set_option maxHeartbeats 1000000 in
/-- The body on whole staging buffers, the three inputs' at given contents and the output's at anything, runs to the
    inputs' unchanged and the output's at `outBlock` of them. -/
theorem sound_kernel (c : Dev nD) (E : Set ℕ) (i : grid0.Coords) (arg3 : Memref sig .tc .vmem S1x1x64 .f32) (harg3 : arg3.IsWhole)
    (arg4 : Memref sig .tc .vmem S1x1024x64 .f32) (harg4 : arg4.IsWhole) (arg5 : Memref sig .tc .vmem S1x1024x64 .f32) (harg5 : arg5.IsWhole)
    (arg6 : Memref sig .tc .vmem S1x1024x1024 .f32) (harg6 : arg6.IsWhole)
    (xw : Vec F S1x1x64 .f32) (xr : Vec F S1x1024x64 .f32) (xc : Vec F S1x1024x64 .f32) (K : PUnit → sProp 𝕄) :
    iprop(owns (c : Thread nD τ) arg3 fullShare xw ∗ owns (c : Thread nD τ) arg4 fullShare xr ∗ owns (c : Thread nD τ) arg5 fullShare xc
        ∗ (∃ d, owns (c : Thread nD τ) arg6 fullShare d)
        ∗ (iprop(owns (c : Thread nD τ) arg3 fullShare xw ∗ owns (c : Thread nD τ) arg4 fullShare xr ∗ owns (c : Thread nD τ) arg5 fullShare xc
            ∗ owns (c : Thread nD τ) arg6 fullShare (outBlock xw xr xc)) -∗ K ⟨⟩))
      ⊢ wp frame (wpE (defs₀ (F := F)) Variants.none c none) E (cc0__dist_kernel i arg3 harg3 arg4 harg4 arg5 harg5 arg6 harg6) K := by
  simp only [cc0__dist_kernel_eq_skeleton]; unfold cc0__dist_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-! ## The proof data -/

/-- The region's proof data on core `c`: the arrays as the region finds them; after the body each input's buffer
    still at its block and the output's at `outBlock` of the three input blocks; between points only the scoped
    buffers that stage nothing; the array of points lent to the row window and to the column window at half a share
    each, the weights at the whole share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) :
    (dats m 0 c).after 3 t = outBlock (iblk m c 0 t) (iblk m c 1 t) (iblk m c 2 t) := by dsimp only [dats]

theorem before_d0 (c : Dev nD) (t : Fin cfg0.N) (d) : (dats m 0 c).before 0 t d = iblk m c 0 t :=
  before_w0 m (dats m 0 c) (A_eq m c 0) (after_w0 m c) t d
theorem before_d1 (c : Dev nD) (t : Fin cfg0.N) (d) : (dats m 0 c).before 1 t d = iblk m c 1 t :=
  before_w1 m (dats m 0 c) (A_eq m c 1) (after_w1 m c) t d
theorem before_d2 (c : Dev nD) (t : Fin cfg0.N) (d) : (dats m 0 c).before 2 t d = iblk m c 2 t :=
  before_w2 m (dats m 0 c) (A_eq m c 2) (after_w2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_d0, before_d1, before_d2]
  rw [show (dats m 0 c).Φ t.succ = (dats m 0 c).Φ t.castSucc from rfl,
    show (dats m 0 c).owesAt () t.succ = (dats m 0 c).owesAt () t.castSucc from rfl,
    after_w0, after_w1, after_w2, after_w3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The arrays at the region's entry -/

/-- The three buffers behind the four windows' arrays, each held whole at the region's entry, are the four windows'
    arrays at their shares: the whole share of the array of points is its two halves. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v6, main_arg1, main_v7] (by decide) (by decide), bigSep_W0]
  show iprop((((c.tc : Thread nD τ).loc main_v6) ↦{fullShare} V m c main_v6) ∗ (((c.tc : Thread nD τ).loc main_arg1) ↦{fullShare} V m c main_arg1)
      ∗ (((c.tc : Thread nD τ).loc main_v7) ↦{fullShare} V m c main_v7)) ⊢ _
  iintro ⟨H6, H1, H7⟩
  ihave H1' := (pointsTo_share (PosShare.mem_left_op_right fullShare)).1 $$ H1
  icases H1' with ⟨H1l, H1r⟩
  isplitl [H6]
  · rw [(arr_whole0 0).set_eq_univ]; iexact H6
  isplitl [H1l]
  · rw [(arr_whole0 1).set_eq_univ]; iexact H1l
  isplitl [H1r]
  · rw [(arr_whole0 2).set_eq_univ]; iexact H1r
  rw [(arr_whole0 3).set_eq_univ]; iexact H7

/-! ## The run -/

/-- What the run ends with: each window's array at what the write-backs leave of the proof data, every other
    unscoped buffer as the region found it. -/
def RunPost (r : PUnit × MemSt nD τ sig (Elt F)) : Prop :=
  ∀ c : Dev nD, (∀ w, r.2.mem (((cfg0).spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- From any memory with every counter at zero, every weakly fair execution of the program terminates, faulting
    nowhere, in a state satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => BI.emp_sep.2)
    (hin := fun c => by dsimp only [dats]; exact BI.emp_sep.1)
    (hout := fun c => by dsimp only [dats]; exact BI.emp_sep.2)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The arguments end unchanged: the array of points is an input window's array, which no write-back touches; the
    other two no window stages, and no host operation writes any of the three. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 rfl (by decide))).trans (V_main_arg0 m c),
     ((h c).1 1).trans (((dats m 0 c).arrAt_in 1 rfl _).trans ((A_eq m c 1).trans (V_main_arg1 m c))),
     ((h c).2 main_arg2 (Pipeline.mem_restRefs_of main_arg2 rfl (by decide))).trans (V_main_arg2 m c)⟩) (run_main m ρ)

end Cert.KernelIdeal.Run

end
-- ==== Proof.Spec.lean ====
/-
  The mathematics both programs compute. With weights `w[b, k] = max(G[b, k], 0) ^ (2 t)` (laid out `[4, 1, 64]`) and
  points `V[b, r, k]`, the result at `(b, r, s)` is

      (Σ_k (V[b,r,k] · w[b,k]) · V[b,r,k]  +  Σ_k (V[b,s,k] · w[b,k]) · V[b,s,k])  −  2 · Σ_k (V[b,r,k] · w[b,k]) · V[b,s,k],

  the weighted squared distance between points `r` and `s` of batch `b`, as both programs spell it: two weighted
  squared norms and twice the weighted inner product, every sum over the 64 coordinates, on the extended reals. The two
  programs group and order every product and sum the same way, so the one law of arithmetic that joins them is
  `0 + x = x`: the reference's sums start from the zero word, the kernel's lane sums and its matrix product into a zero
  accumulator are the plain sums.
  Also here: a few layout operations read at an index given by coordinates (a `[1, 1, a]` array read as a vector, a
  vector read as a column, a column repeated along rows), and a sum along the rows of a matrix read as a finite sum.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Dist

open Idealize.ShloMosaic Idealize.ShloMosaic.ValueIdx

variable {α : Type}

/-! ## Layout operations at coordinates -/

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A float sum along the rows of a matrix, into the zero word, read at a row: the finite sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show (∑ k : Fin b, src (h.lift (ix1 p) k)) = _
  refine Finset.sum_congr rfl fun k _ => congrArg src (funext fun d => Fin.ext ?_)
  match d with
  | ⟨0, _⟩ => rfl
  | ⟨1, _⟩ => rfl

/-! ## The function -/

abbrev SG : Shape := ⟨2, ![4, 64]⟩
abbrev ST : Shape := ⟨1, ![1]⟩
abbrev S0 : Shape := ⟨0, ![]⟩
abbrev SW : Shape := ⟨3, ![4, 1, 64]⟩
abbrev SV : Shape := ⟨3, ![4, 4096, 64]⟩
abbrev SO : Shape := ⟨3, ![4, 4096, 4096]⟩

/-- The number 2 as the f32 word both programs multiply the inner product by. -/
abbrev two : EReal := Ideal.ofBits .f32 0x40000000#32

/-- The weights as both programs compute them on the host: `max(G, 0) ^ (2 · t)`, entry by entry, laid out `[4, 1, 64]`. -/
def weights (g : FVec Ideal SG .f32) (tt : FVec Ideal ST .f32) : FVec Ideal SW .f32 :=
  broadcastInDim SW ![0, 2] (by decide)
    (Host.powf (maximumf g (broadcastInDim SG ![] (by decide) (constant (F := Ideal) S0 .f32 0x00000000#32)))
      (broadcastInDim SG ![] (by decide) (mulf (constant (F := Ideal) S0 .f32 0x40000000#32) (shapeCast S0 tt (by decide)))))

/-- The weighted squared norm of point `r` of batch `b`. -/
def wnorm (w : SW.Idx → EReal) (v : SV.Idx → EReal) (b : Fin 4) (r : Fin 4096) : EReal :=
  ∑ k : Fin 64, (v (ix3 b r k) * w (ix3 b (0 : Fin 1) k)) * v (ix3 b r k)

/-- The weighted inner product of points `r` and `s` of batch `b`. -/
def wcross (w : SW.Idx → EReal) (v : SV.Idx → EReal) (b : Fin 4) (r s : Fin 4096) : EReal :=
  ∑ k : Fin 64, (v (ix3 b r k) * w (ix3 b (0 : Fin 1) k)) * v (ix3 b s k)

/-- The weighted squared distance at coordinates. -/
def distAt (w : SW.Idx → EReal) (v : SV.Idx → EReal) (b : Fin 4) (r s : Fin 4096) : EReal :=
  (wnorm w v b r + wnorm w v b s) - two * wcross w v b r s

/-- The whole result array. -/
def dist (w : SW.Idx → EReal) (v : SV.Idx → EReal) : SO.Idx → EReal := fun i => distAt w v (i 0) (i 1) (i 2)

theorem dist_ix3 (w : SW.Idx → EReal) (v : SV.Idx → EReal) (b : Fin 4) (r s : Fin 4096) :
    dist w v (ix3 b r s) = distAt w v b r s := rfl

end Cert.Dist

end
-- ==== Proof.IdealValue.lean ====
/-
  What the idealized program's result array holds after its run: the weighted squared distances of `Proof/Spec.lean`.
  Grid point `(b, i, j)` writes back the `1024 × 1024` block of rows `1024 i …` and columns `1024 j …` of batch `b`;
  the body's one store is, at `(p, q)` of the block, the two weighted norms of row `p` of the row tile and of row `q` of
  the column tile, less twice their weighted inner product; the row tile is rows `1024 i …` of the points, the column
  tile rows `1024 j …`, and the weights' block is batch `b`'s row of weights. The 64 blocks tile the array.
-/
import proofs.«156084_j14499809591883_1_alg».proof.Proof.IdealRun
import proofs.«156084_j14499809591883_1_alg».proof.Proof.Spec
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Run Idealize.ShloMosaic Idealize.ShloMosaic.TcCoe Idealize.SL.Sem
open Idealize.ShloMosaic.Pipeline (Dat)
open Idealize.ShloMosaic.ValueIdx
open Cert.Dist

/-! ## The body's store at an index of the block -/

/-- The weights' block laid along the rows of a tile: at `(p, k)` it is the weight of coordinate `k`. -/
theorem wrow_apply (xw : Vec Ideal S1x1x64 .f32) (p : Fin 1024) (k : Fin 64) :
    broadcastTo S1024x64 (shapeCast S1x64 (shapeCast S64 xw shapeCasts_S1x1x64_S64) shapeCasts_S64_S1x64) broadcasts_S1x64_S1024x64 (ix2 p k)
      = xw (ix3 (0 : Fin 1) (0 : Fin 1) k) :=
  (broadcastTo_1b_ab_apply _ broadcasts_S1x64_S1024x64 p k).trans
    ((shapeCast_a_1a_apply _ shapeCasts_S64_S1x64 (0 : Fin 1) k).trans (shapeCast_11a_a_apply xw shapeCasts_S1x1x64_S64 k))

/-- A tile as a matrix: at `(p, k)` it is the block at `(0, p, k)`. -/
theorem tile_apply (x : Vec Ideal S1x1024x64 .f32) (p : Fin 1024) (k : Fin 64) :
    shapeCast S1024x64 x shapeCasts_S1x1024x64_S1024x64 (ix2 p k) = x (ix3 (0 : Fin 1) p k) :=
  shapeCast_1ab_ab_apply x shapeCasts_S1x1024x64_S1024x64 p k

/-- The tile scaled by the weights, times the tile, summed along the rows: at row `p` the weighted squared norm. -/
theorem norms_apply (xw : Vec Ideal S1x1x64 .f32) (x : Vec Ideal S1x1024x64 .f32) (p : Fin 1024) :
    multiReduction (F := Ideal) .add [1] S1024
        (mulf (mulf (shapeCast S1024x64 x shapeCasts_S1x1024x64_S1024x64)
          (broadcastTo S1024x64 (shapeCast S1x64 (shapeCast S64 xw shapeCasts_S1x1x64_S64) shapeCasts_S64_S1x64) broadcasts_S1x64_S1024x64))
          (shapeCast S1024x64 x shapeCasts_S1x1024x64_S1024x64))
        0x00000000#32 reduces_S1024x64_S1024 (.inl rfl) rfl (ix1 p)
      = ∑ k : Fin 64, (x (ix3 (0 : Fin 1) p k) * xw (ix3 (0 : Fin 1) (0 : Fin 1) k)) * x (ix3 (0 : Fin 1) p k) := by
  refine (rowSum_apply _ reduces_S1024x64_S1024 (.inl rfl) rfl p).trans ?_
  refine Finset.sum_congr rfl fun k _ => ?_
  show (shapeCast S1024x64 x shapeCasts_S1x1024x64_S1024x64 (ix2 p k)
      * broadcastTo S1024x64 (shapeCast S1x64 (shapeCast S64 xw shapeCasts_S1x1x64_S64) shapeCasts_S64_S1x64) broadcasts_S1x64_S1024x64 (ix2 p k))
      * shapeCast S1024x64 x shapeCasts_S1x1024x64_S1024x64 (ix2 p k) = _
  rw [tile_apply, wrow_apply]

/-! The matrix product's operand indices, axis by axis. -/

theorem lhs_axis0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_axis1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_axis0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_axis1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The matrix product of two `1024 × 64` matrices contracting their 64 columns, into the zero accumulator, at
    `(p, q)`: the sum over `k` of the products of row `p` of the one and row `q` of the other. -/
theorem cross_apply (l r : FVec Ideal S1024x64 .bf16) (p q : Fin 1024) :
    matmul dot_S1024x64_S1024x64_S1024x1024_1_1_0_0_n_n none l r (constant S1024x1024 .f32 0x00000000#32) (ix2 p q)
      = ∑ k : Fin 64, l (ix2 p k) * r (ix2 q k) := by
  simp only [matmul]
  rw [Ideal.matmul_constant_zero_apply, ← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx (ix2 p q) ((ValueIdx.contrEquiv1 dot_S1024x64_S1024x64_S1024x1024_1_1_0_0_n_n 64 rfl rfl).symm k) = ix2 p k := funext fun a => Fin.ext (by
    match a with
    | ⟨0, _⟩ => exact lhs_axis0 _ _
    | ⟨1, _⟩ => exact (lhs_axis1 _ _).trans hk)
  have er : dot_S1024x64_S1024x64_S1024x1024_1_1_0_0_n_n.rhsIdx (ix2 p q) ((ValueIdx.contrEquiv1 dot_S1024x64_S1024x64_S1024x1024_1_1_0_0_n_n 64 rfl rfl).symm k) = ix2 q k := funext fun a => Fin.ext (by
    match a with
    | ⟨0, _⟩ => exact rhs_axis0 _ _
    | ⟨1, _⟩ => exact (rhs_axis1 _ _).trans hk)
  rw [el, er]

/-- The body's one store, at `(u, p, q)` of the output block: the weighted squared norm of row `p` of the row tile plus
    that of row `q` of the column tile, less twice the weighted inner product of the two rows. (Rounding the matrix
    product's operands to bf16 is the identity on the extended reals.) -/
theorem pay_apply (xw : Vec Ideal S1x1x64 .f32) (xr xc : Vec Ideal S1x1024x64 .f32) (u : Fin 1) (p q : Fin 1024) :
    k0_pay1 (F := Ideal) xw xr xc (ix3 u p q)
      = ((∑ k : Fin 64, (xr (ix3 (0 : Fin 1) p k) * xw (ix3 (0 : Fin 1) (0 : Fin 1) k)) * xr (ix3 (0 : Fin 1) p k))
          + ∑ k : Fin 64, (xc (ix3 (0 : Fin 1) q k) * xw (ix3 (0 : Fin 1) (0 : Fin 1) k)) * xc (ix3 (0 : Fin 1) q k))
        - two * ∑ k : Fin 64, (xr (ix3 (0 : Fin 1) p k) * xw (ix3 (0 : Fin 1) (0 : Fin 1) k)) * xc (ix3 (0 : Fin 1) q k) := by
  unfold k0_pay1
  refine (shapeCast_ab_1ab_apply _ shapeCasts_S1024x1024_S1x1024x1024 u p q).trans ?_
  refine congrArg₂ (· - ·) (congrArg₂ (· + ·) ?_ ?_) (congrArg (two * ·) ?_)
  · refine (broadcastTo_a1_ab_apply _ broadcasts_S1024x1_S1024x1024 p q).trans ?_
    refine (shapeCast_a_a1_apply _ shapeCasts_S1024_S1024x1 p (0 : Fin 1)).trans ?_
    exact norms_apply xw xr p
  · refine (broadcastTo_1b_ab_apply _ broadcasts_S1x1024_S1024x1024 p q).trans ?_
    refine (shapeCast_a_1a_apply _ shapeCasts_S1024_S1x1024 (0 : Fin 1) q).trans ?_
    exact norms_apply xw xc q
  · refine (cross_apply _ _ p q).trans ?_
    refine Finset.sum_congr rfl fun k _ => ?_
    show (shapeCast S1024x64 xr shapeCasts_S1x1024x64_S1024x64 (ix2 p k)
        * broadcastTo S1024x64 (shapeCast S1x64 (shapeCast S64 xw shapeCasts_S1x1x64_S64) shapeCasts_S64_S1x64) broadcasts_S1x64_S1024x64 (ix2 p k))
        * shapeCast S1024x64 xc shapeCasts_S1x1024x64_S1024x64 (ix2 q k) = _
    rw [tile_apply, tile_apply, wrow_apply]

/-! ## Which block each grid point moves -/

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps, decided over the 64 grid points: the weights' block is batch `b`'s, the row tile is block
    `(b, i)` and the column tile block `(b, j)` of the points, where the output block is `(b, i, j)`. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = win0_3.index t (1 : Fin 3) ∧ win0_1.index t (2 : Fin 3) = 0
    ∧ win0_2.index t (0 : Fin 3) = win0_3.index t (0 : Fin 3) ∧ win0_2.index t (1 : Fin 3) = win0_3.index t (2 : Fin 3) ∧ win0_2.index t (2 : Fin 3) = 0
    ∧ win0_3.index t (0 : Fin 3) ≤ 3 ∧ win0_3.index t (1 : Fin 3) ≤ 3 ∧ win0_3.index t (2 : Fin 3) ≤ 3 :=
  (by decide +kernel : ∀ t : Fin grid0.N, _)

/-- Every block of the output array is some grid point's. -/
theorem idx_onto : ∀ (q0 q1 q2 : Fin 4), ∃ t : Fin cfg0.N, win0_3.index t = ![q0.val, q1.val, q2.val] :=
  (by decide +kernel : ∀ (q0 q1 q2 : Fin 4), ∃ t : Fin grid0.N, win0_3.index t = ![q0.val, q1.val, q2.val])

/-- The batch of grid point `t`, and the array's row and column that `(p, q)` of its block are. -/
def bOf (t : Fin cfg0.N) : Fin 4 := ⟨win0_3.index t (0 : Fin 3), by obtain ⟨_, _, _, _, _, _, _, _, _, h, _, _⟩ := idx_facts t; omega⟩
def rOf (t : Fin cfg0.N) (p : Fin 1024) : Fin 4096 :=
  ⟨win0_3.index t (1 : Fin 3) * 1024 + p.val, by obtain ⟨_, _, _, _, _, _, _, _, _, _, h, _⟩ := idx_facts t; have := p.isLt; omega⟩
def cOf (t : Fin cfg0.N) (q : Fin 1024) : Fin 4096 :=
  ⟨win0_3.index t (2 : Fin 3) * 1024 + q.val, by obtain ⟨_, _, _, _, _, _, _, _, _, _, _, h⟩ := idx_facts t; have := q.isLt; omega⟩

/-- The weights' block at point `t` is batch `bOf t`'s row of weights. -/
theorem rd_w (c : Dev nD) (t : Fin cfg0.N) (u0 u1 : Fin 1) (k : Fin 64) :
    iblk m c 0 t (ix3 u0 u1 k) = V m c main_v6 (ix3 (bOf t) (0 : Fin 1) k) := by
  obtain ⟨e0, e1, e2, -⟩ := idx_facts t
  show V m c main_v6 (((cfg0.win 0).blk t).view.emb (ix3 u0 u1 k)) = _
  refine congrArg (V m c main_v6) (funext fun a => Fin.ext ?_)
  match a with
  | ⟨0, _⟩ => show win0_0.index t (0 : Fin 3) * 1 + 1 * u0.val = win0_3.index t (0 : Fin 3); have := u0.isLt; omega
  | ⟨1, _⟩ => show win0_0.index t (1 : Fin 3) * 1 + 1 * u1.val = 0; have := u1.isLt; omega
  | ⟨2, _⟩ => show win0_0.index t (2 : Fin 3) * 64 + 1 * k.val = k.val; omega

/-- The row tile at point `t` is rows `rOf t ·` of batch `bOf t` of the points. -/
theorem rd_r (c : Dev nD) (t : Fin cfg0.N) (u : Fin 1) (p : Fin 1024) (k : Fin 64) :
    iblk m c 1 t (ix3 u p k) = V m c main_arg1 (ix3 (bOf t) (rOf t p) k) := by
  obtain ⟨-, -, -, e0, e1, e2, -⟩ := idx_facts t
  show V m c main_arg1 (((cfg0.win 1).blk t).view.emb (ix3 u p k)) = _
  refine congrArg (V m c main_arg1) (funext fun a => Fin.ext ?_)
  match a with
  | ⟨0, _⟩ => show win0_1.index t (0 : Fin 3) * 1 + 1 * u.val = win0_3.index t (0 : Fin 3); have := u.isLt; omega
  | ⟨1, _⟩ => show win0_1.index t (1 : Fin 3) * 1024 + 1 * p.val = win0_3.index t (1 : Fin 3) * 1024 + p.val; omega
  | ⟨2, _⟩ => show win0_1.index t (2 : Fin 3) * 64 + 1 * k.val = k.val; omega

/-- The column tile at point `t` is rows `cOf t ·` of batch `bOf t` of the points. -/
theorem rd_c (c : Dev nD) (t : Fin cfg0.N) (u : Fin 1) (q : Fin 1024) (k : Fin 64) :
    iblk m c 2 t (ix3 u q k) = V m c main_arg1 (ix3 (bOf t) (cOf t q) k) := by
  obtain ⟨-, -, -, -, -, -, e0, e1, e2, -⟩ := idx_facts t
  show V m c main_arg1 (((cfg0.win 2).blk t).view.emb (ix3 u q k)) = _
  refine congrArg (V m c main_arg1) (funext fun a => Fin.ext ?_)
  match a with
  | ⟨0, _⟩ => show win0_2.index t (0 : Fin 3) * 1 + 1 * u.val = win0_3.index t (0 : Fin 3); have := u.isLt; omega
  | ⟨1, _⟩ => show win0_2.index t (1 : Fin 3) * 1024 + 1 * q.val = win0_3.index t (2 : Fin 3) * 1024 + q.val; omega
  | ⟨2, _⟩ => show win0_2.index t (2 : Fin 3) * 64 + 1 * k.val = k.val; omega

/-- Where `(u, p, q)` of the output block at point `t` lies in the array. -/
theorem emb_out (t : Fin cfg0.N) (u : Fin 1) (p q : Fin 1024) :
    ((cfg0.win 3).blk t).view.emb (ix3 u p q) = ix3 (bOf t) (rOf t p) (cOf t q) := by
  funext a; apply Fin.ext
  match a with
  | ⟨0, _⟩ => show win0_3.index t (0 : Fin 3) * 1 + 1 * u.val = win0_3.index t (0 : Fin 3); have := u.isLt; omega
  | ⟨1, _⟩ => show win0_3.index t (1 : Fin 3) * 1024 + 1 * p.val = win0_3.index t (1 : Fin 3) * 1024 + p.val; omega
  | ⟨2, _⟩ => show win0_3.index t (2 : Fin 3) * 1024 + 1 * q.val = win0_3.index t (2 : Fin 3) * 1024 + q.val; omega

/-! ## From the blocks to the array -/

/-- What point `t` writes back is block `t` of the weighted squared distances of the weights and the points as the
    region finds them. -/
theorem flushed_eq (c : Dev nD) (t : Fin cfg0.N) :
    (dats m 0 c).flushed 3 t = ((cfg0.win 3).blk t).view.read (Elt Ideal) (dist (V m c main_v6) (V m c main_arg1)) := by
  show (cfg0.win 3).cut (grid0.coords t) ((dats m 0 c).after 3 t) = _
  rw [after_w3]
  unfold outBlock
  rw [View.canon_unit_zero hz3]
  simp only [View.ld_unit_zero (S := S1x1x64) hz3, View.ld_unit_zero (S := S1x1024x64) hz3]
  funext j
  obtain ⟨u, p, q, rfl⟩ : ∃ (u : Fin 1) (p q : Fin 1024), j = ix3 u p q := ⟨j 0, j 1, j 2, eq_ix3 j⟩
  show k0_pay1 (F := Ideal) (iblk m c 0 t) (iblk m c 1 t) (iblk m c 2 t) (ix3 u p q)
    = dist (V m c main_v6) (V m c main_arg1) (((cfg0.win 3).blk t).view.emb (ix3 u p q))
  rw [emb_out t u p q, dist_ix3]
  refine (pay_apply (iblk m c 0 t) (iblk m c 1 t) (iblk m c 2 t) u p q).trans ?_
  unfold distAt wnorm wcross
  simp only [rd_w m c t, rd_r m c t, rd_c m c t]

/-- An index of the array is in point `t`'s block iff each coordinate is in the block's range on its axis. -/
theorem mem_blk (t : Fin cfg0.N) (i : S4x4096x4096.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v7).slice (win0_3.rect t)).set ↔ _
  rw [View.set_slice_whole, Rect.mem_set_unit]
  exact Iff.rfl

/-- Every index of the array is in the block some point writes back: the point of its batch, its row's tile and its
    column's tile. -/
theorem covered (i : S4x4096x4096.Idx) : ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, by omega⟩ ⟨(i 1).val / 1024, by omega⟩ ⟨(i 2).val / 1024, by omega⟩
  have q0 : win0_3.index t (0 : Fin 3) = (i 0).val := congrFun ht 0
  have q1 : win0_3.index t (1 : Fin 3) = (i 1).val / 1024 := congrFun ht 1
  have q2 : win0_3.index t (2 : Fin 3) = (i 2).val / 1024 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- The result array after the run. -/
theorem final (c : Dev nD) : (dats m 0 c).arrAt 3 cfg0.N = dist (V m c main_v6) (V m c main_arg1) :=
  (dats m 0 c).arrAt_eq_of_cover 3 _ (fun t _ => flushed_eq m c t) covered

/-! ## The weights, and the run read -/

/-- The region finds the weights the nine host operations computed. -/
theorem V_weights (c : Dev nD) :
    (V m c main_v6 : S4x1x64.Idx → EReal) = weights (m ((c.tc : Thread nD τ).loc main_arg0)) (m ((c.tc : Thread nD τ).loc main_arg2)) := by
  dsimp only [V, hostOps0]; after_results; rfl

/-- The run of the idealized program: it ends with the result array at the weighted squared distances of the launch
    memory's arguments, and the arguments unchanged. -/
theorem run : θ_run defs (onTc (τ := τ) (main (F := Ideal))) ⟨m, fun _ => 0, ρ⟩ fun r => ∀ c : Dev nD,
      r.2.mem ((c.tc : Thread nD τ).loc main_v7)
        = dist (weights (m ((c.tc : Thread nD τ).loc main_arg0)) (m ((c.tc : Thread nD τ).loc main_arg2))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 3).trans ((final m c).trans (by rw [V_weights m c, V_main_arg1 m c])),
     ((h c).2 main_arg0 (Pipeline.mem_restRefs_of main_arg0 rfl (by decide))).trans (V_main_arg0 m c),
     ((h c).1 1).trans (((dats m 0 c).arrAt_in 1 rfl _).trans ((A_eq m c 1).trans (V_main_arg1 m c))),
     ((h c).2 main_arg2 (Pipeline.mem_restRefs_of main_arg2 rfl (by decide))).trans (V_main_arg2 m c)⟩) (run_main m ρ)

end Cert.KernelIdeal.Result

end
-- ==== Proof.RefValue.lean ====
/-
  The reference's result, read one operation at a time, is the weighted squared distance of `Proof/Spec.lean`: its
  sum over the coordinates starts from the zero word (`0 + x = x`, the one law used), its inner product is the host's
  `dot_general` over the 64 coordinates with batch `b`, and its two broadcasts of the norms read row `r` and row `s`.
-/
import proofs.«156084_j14499809591883_1_alg».proof.Proof.Gen.ReferenceIdeal.Read
import proofs.«156084_j14499809591883_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Dist

/-- The reference's weights are the weights. -/
theorem weights_eq (x0 : FVec Ideal S4x64 .f32) (x2 : FVec Ideal S1 .f32) : val_main_v6 (F := Ideal) x0 x2 = weights x0 x2 := rfl

/-- The points scaled by the weights, at `(b, r, k)`. -/
theorem scaled_apply (x0 : FVec Ideal S4x64 .f32) (x1 : FVec Ideal S4x4096x64 .f32) (x2 : FVec Ideal S1 .f32)
    (b : Fin 4) (r : Fin 4096) (k : Fin 64) :
    val_main_v8 (F := Ideal) x0 x1 x2 (ix3 b r k) = x1 (ix3 b r k) * weights x0 x2 (ix3 b (0 : Fin 1) k) := by
  have h7 : idx_main_v7 (ix3 b r k) = ix3 b (0 : Fin 1) k :=
    funext fun a => Fin.ext (by match a with | ⟨0, _⟩ => rfl | ⟨1, _⟩ => rfl | ⟨2, _⟩ => rfl)
  rw [val_main_v8_apply, val_main_v7_apply, h7, weights_eq]
  rfl

/-- The reference's result array is the weighted squared distances of the weights and the points. -/
theorem result_eq (x0 : FVec Ideal S4x64 .f32) (x1 : FVec Ideal S4x4096x64 .f32) (x2 : FVec Ideal S1 .f32) :
    val_main_v19 (F := Ideal) x0 x1 x2 = dist (weights x0 x2) x1 := by
  funext i
  obtain ⟨b, r, s, rfl⟩ : ∃ (b : Fin 4) (r s : Fin 4096), i = ix3 b r s := ⟨i 0, i 1, i 2, eq_ix3 i⟩
  have hn1 : ∀ k, idx_main_v10 (idx_main_v12 (idx_main_v14 (ix3 b r s))) k = ix3 b r k := fun k =>
    funext fun a => Fin.ext (by match a with | ⟨0, _⟩ => rfl | ⟨1, _⟩ => rfl | ⟨2, _⟩ => rfl)
  have hn2 : ∀ k, idx_main_v10 (idx_main_v13 (idx_main_v15 (ix3 b r s))) k = ix3 b s k := fun k =>
    funext fun a => Fin.ext (by match a with | ⟨0, _⟩ => rfl | ⟨1, _⟩ => rfl | ⟨2, _⟩ => rfl)
  have hl : ∀ k, lidx_main_v11 (ix3 b r s) k = ix3 b r k := fun k =>
    funext fun a => Fin.ext (by match a with | ⟨0, _⟩ => rfl | ⟨1, _⟩ => rfl | ⟨2, _⟩ => rfl)
  have hr : ∀ k, ridx_main_v11 (ix3 b r s) k = ix3 b s k := fun k =>
    funext fun a => Fin.ext (by match a with | ⟨0, _⟩ => rfl | ⟨1, _⟩ => rfl | ⟨2, _⟩ => rfl)
  rw [dist_ix3, val_main_v19_apply, val_main_v16_apply, val_main_v14_apply, val_main_v12_apply, val_main_v10_apply,
    val_main_v15_apply, val_main_v13_apply, val_main_v10_apply, val_main_v18_apply, val_main_v17_apply,
    val_main_cst_2_apply, val_main_v11_apply]
  simp only [hn1, hn2, hl, hr, val_main_v9_apply, scaled_apply, val_main_cst_1_apply, Ideal.ofBits_def, Ideal.ofBits_zero_f32,
    zero_add, Ideal.subf_def, Ideal.addf_def, Ideal.mulf_def]
  rfl

end Cert.ReferenceIdeal.RefValue

end
-- ==== Proof.lean ====
/-
  The certificate of a tiled kernel for weighted pairwise squared distances against its jnp reference.
  Both programs first compute, on the host, the weights `w = max(G, 0) ^ (2 t)`; the kernel then runs a `4 × 4 × 4` grid,
  at point `(b, i, j)` reading batch `b`'s weights, the row tile `i` and the column tile `j` of the points `V` — two
  windows on the one array `V` — and writing the `1024 × 1024` block `(b, i, j)` of the result,
  `y[b, r, s] = Σ_k (V[b,r,k] w[b,k]) V[b,r,k] + Σ_k (V[b,s,k] w[b,k]) V[b,s,k] − 2 Σ_k (V[b,r,k] w[b,k]) V[b,s,k]`,
  which is what the reference computes for the whole array at once. On the extended reals the kernel's rounding of
  the matrix product's operands to bf16 is the identity, so the two results are one function (`Proof/Spec.lean`).
  The frames: each kernel program's run is the region's launch with the array of points lent to its two windows at
  half a share each (`Proof/BitsRun.lean` at the machine's words, `Proof/IdealRun.lean` at the extended reals); the
  reference's is its run with the result dropped. Nothing was rewritten by the idealization, so `preserves` is trivial.
-/
import proofs.«156084_j14499809591883_1_alg».proof.Defs
import proofs.«156084_j14499809591883_1_alg».proof.Proof.Gen.Kernel
import proofs.«156084_j14499809591883_1_alg».proof.Proof.Gen.KernelIdeal
import proofs.«156084_j14499809591883_1_alg».proof.Proof.Gen.ReferenceIdeal
import proofs.«156084_j14499809591883_1_alg».proof.Proof.Gen.Pre_finite_inputs
import proofs.«156084_j14499809591883_1_alg».proof.Proof.Gen.ReferenceIdeal.Run
import proofs.«156084_j14499809591883_1_alg».proof.Proof.BitsRun
import proofs.«156084_j14499809591883_1_alg».proof.Proof.IdealValue
import proofs.«156084_j14499809591883_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the weighted squared distances of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v19_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
